-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel

variable [Facts]

def fn_part1 {F : FTy → Type} [FloatOps F] (main_v13 : IVec S_ 1) (main_v16 : IVec S4096x64x128 1) : IVec S_ 1 :=
  let main_c_5 : IVec S_ 1 := constantI S_ 1 1#1
  let main_v17 : IVec S_ 1 := (fun x v => Host.reduce IntOp.andi x v reducesTo_S4096x64x128_S_d0_1_2 h_S_) main_v16 main_c_5
  let main_v18 : IVec S_ 1 := andi main_v13 main_v17
  main_v18

def fn {F : FTy → Type} [FloatOps F] (main_arg0 : FVec F S4096x64x128 .f32) (main_arg1 : FVec F S4096x64x128 .f32) (main_arg2 : FVec F S4096x64x128 .f32) (main_arg3 : FVec F S4096x64x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096x64x128 .f32 := Host.absf main_arg1
  let main_cst_0 : FVec F S_ .f32 := constant S_ .f32 0x7F800000#32
  let main_v5 : FVec F S4096x64x128 .f32 := broadcastInDim S4096x64x128 ![] bcast_S_S4096x64x128 main_cst_0
  let main_v6 : IVec S4096x64x128 1 := cmpf .olt main_v4 main_v5
  let main_c_1 : IVec S_ 1 := constantI S_ 1 1#1
  let main_v7 : IVec S_ 1 := (fun x v => Host.reduce IntOp.andi x v reducesTo_S4096x64x128_S_d0_1_2 h_S_) main_v6 main_c_1
  let main_v8 : IVec S_ 1 := andi main_v3 main_v7
  let main_v9 : FVec F S4096x64x128 .f32 := Host.absf main_arg2
  let main_cst_2 : FVec F S_ .f32 := constant S_ .f32 0x7F800000#32
  let main_v10 : FVec F S4096x64x128 .f32 := broadcastInDim S4096x64x128 ![] bcast_S_S4096x64x128 main_cst_2
  let main_v11 : IVec S4096x64x128 1 := cmpf .olt main_v9 main_v10
  let main_c_3 : IVec S_ 1 := constantI S_ 1 1#1
  let main_v12 : IVec S_ 1 := (fun x v => Host.reduce IntOp.andi x v reducesTo_S4096x64x128_S_d0_1_2 h_S_) main_v11 main_c_3
  let main_v13 : IVec S_ 1 := andi main_v8 main_v12
  let main_v14 : FVec F S4096x64x128 .f32 := Host.absf main_arg3
  let main_cst_4 : FVec F S_ .f32 := constant S_ .f32 0x7F800000#32
  let main_v15 : FVec F S4096x64x128 .f32 := broadcastInDim S4096x64x128 ![] bcast_S_S4096x64x128 main_cst_4
  let main_v16 : IVec S4096x64x128 1 := cmpf .olt main_v14 main_v15
  fn_part1 (F := F) main_v13 main_v16
-- ==== Kernel.lean ====
abbrev S4096x64x128 : Shape := ⟨3, ![4096, 64, 128]⟩
abbrev S4096x256 : Shape := ⟨2, ![4096, 256]⟩
abbrev S64x64x128 : Shape := ⟨3, ![64, 64, 128]⟩
abbrev S64x256 : Shape := ⟨2, ![64, 256]⟩
abbrev S64x128 : Shape := ⟨2, ![64, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S4096x64x128, .f32⟩
  | .hbm, ⟨3, _⟩ => ⟨S4096x64x128, .f32⟩
  | .hbm, ⟨4, _⟩ => ⟨S4096x256, .f32⟩
  | .local _ .vmem, ⟨0, _⟩ => ⟨S64x64x128, .f32⟩
  | .local _ .vmem, ⟨1, _⟩ => ⟨S64x64x128, .f32⟩
  | .local _ .vmem, ⟨2, _⟩ => ⟨S64x64x128, .f32⟩
  | .local _ .vmem, ⟨3, _⟩ => ⟨S64x64x128, .f32⟩
  | .local _ .vmem, ⟨4, _⟩ => ⟨S64x64x128, .f32⟩
  | .local _ .vmem, ⟨5, _⟩ => ⟨S64x64x128, .f32⟩
  | .local _ .vmem, ⟨6, _⟩ => ⟨S64x64x128, .f32⟩
  | .local _ .vmem, ⟨7, _⟩ => ⟨S64x64x128, .f32⟩
  | .local _ .vmem, ⟨8, _⟩ => ⟨S64x256, .f32⟩
  | .local _ .vmem, ⟨9, _⟩ => ⟨S64x256, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x64x128_S64x64x128_0_0_0 : ∀ a, (![0, 0, 0] : Fin 3 → Nat) a + S64x64x128.size a ≤ S64x64x128.size a
  h_S64x64x128 : 0 < S64x64x128.numel
  reduces_S64x64x128_S64x128 : S64x64x128.Reduces [1] S64x128
  inb_S64x256_S64x128_0_0 : ∀ a, (![0, 0] : Fin 2 → Nat) a + S64x128.size a ≤ S64x256.size a
  h_S64x128 : 0 < S64x128.numel
  inb_S64x256_S64x128_0_128 : ∀ a, (![0, 128] : Fin 2 → Nat) a + S64x128.size a ≤ S64x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S4096x64x128.size a
  hwx0_0 : ∀ i : grid0.Coords, EltTy.bits .f32 = 32 ∨ (Rect.block (s := S4096x64x128) S64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x128.size a ≤ S4096x64x128.size a
  hwx0_1 : ∀ i : grid0.Coords, EltTy.bits .f32 = 32 ∨ (Rect.block (s := S4096x64x128) S64x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S4096x64x128.size a
  hwx0_2 : ∀ i : grid0.Coords, EltTy.bits .f32 = 32 ∨ (Rect.block (s := S4096x64x128) S64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x128.size a ≤ S4096x64x128.size a
  hwx0_3 : ∀ i : grid0.Coords, EltTy.bits .f32 = 32 ∨ (Rect.block (s := S4096x64x128) S64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S4096x256.size a
  hwx0_4 : ∀ i : grid0.Coords, EltTy.bits .f32 = 32 ∨ (Rect.block (s := S4096x256) S64x256.size (cc0_transform_4 i) (hinb0_4 i)).WholeWords (EltTy.packing .f32)

variable [Facts₀]

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S_ : Shape := ⟨0, ![]⟩
abbrev S4096x128 : Shape := ⟨2, ![4096, 128]⟩
abbrev S4096x256 : Shape := ⟨2, ![4096, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S4096x64x128, .f32⟩
  | .hbm, ⟨3, _⟩ => ⟨S4096x64x128, .f32⟩
  | .hbm, ⟨4, _⟩ => ⟨S4096x64x128, .f32⟩
  | .hbm, ⟨5, _⟩ => ⟨S_, .f32⟩
  | .hbm, ⟨6, _⟩ => ⟨S4096x128, .f32⟩
  | .hbm, ⟨7, _⟩ => ⟨S4096x64x128, .f32⟩
  | .hbm, ⟨8, _⟩ => ⟨S_, .f32⟩
  | .hbm, ⟨9, _⟩ => ⟨S4096x128, .f32⟩
  | .hbm, ⟨10, _⟩ => ⟨S4096x256, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  reducesTo_S4096x64x128_S4096x128_d1 : S4096x64x128.ReducesTo [1] S4096x128
  h_S_ : 0 < S_.numel
  concatenates_S4096x128_S4096x128_S4096x256_d1 : Shape.Concatenates [S4096x128, S4096x128] S4096x256 1

variable [Facts₀]

class Facts : Prop extends Facts₀ where

variable [Facts]
-- ==== Proof.PairSums.lean ====
/-
  The function both programs compute. From four arrays of shape [n, 64, 128] the result of shape [n, 256] holds, in
  row r, at column l < 128 the sum over the middle axis k of a0[r, k, l] · a1[r, k, l], and at column 128 + l the same
  sum of a2[r, k, l] · a3[r, k, l]: two column sums of pointwise products laid side by side along the last axis.
  It is stated for any number of rows n, because the kernel computes it on blocks of 64 rows and the reference on all
  4096 rows at once; a block of rows of the whole result is the result of that block of rows of the arguments.
  Sums of extended reals are commutative and associative without any finiteness condition, so nothing here asks the
  entries to be real numbers.
-/
import Idealize.ShloMosaic.PureOps.Ideal
import Idealize.ShloMosaic.Lib.ValueIdx

noncomputable section

open scoped BigOperators

namespace Cert.PairSums

open Idealize.ShloMosaic Idealize.ShloMosaic.ValueIdx

/-- The sum over the middle axis of the pointwise product of two [n, 64, 128] arrays, at row `r` and lane `l`. -/
def colSum {n : Nat} (a b : (⟨3, ![n, 64, 128]⟩ : Shape).Idx → EReal) (r : Fin n) (l : Fin 128) : EReal :=
  ∑ k : Fin 64, a (ix3 r k l) * b (ix3 r k l)

/-- The [n, 256] result: the column sums of a0 · a1 in the first 128 lanes, those of a2 · a3 in the last 128. -/
def pairSums {n : Nat} (a0 a1 a2 a3 : (⟨3, ![n, 64, 128]⟩ : Shape).Idx → EReal) :
    (⟨2, ![n, 256]⟩ : Shape).Idx → EReal := fun i =>
  if h : (i 1).val < 128 then colSum a0 a1 (i 0) ⟨(i 1).val, h⟩
  else colSum a2 a3 (i 0) ⟨(i 1).val - 128, by have := idx2_lt1 i; omega⟩

/-- In the first 128 lanes the result is the column sum of the first pair, at the row and lane the caller names. -/
theorem pairSums_left {n : Nat} (a0 a1 a2 a3 : (⟨3, ![n, 64, 128]⟩ : Shape).Idx → EReal)
    (i : (⟨2, ![n, 256]⟩ : Shape).Idx) (r : Fin n) (l : Fin 128) (hr : r.val = (i 0).val) (hl : l.val = (i 1).val) :
    pairSums a0 a1 a2 a3 i = colSum a0 a1 r l := by
  have h : (i 1).val < 128 := hl ▸ l.isLt
  unfold pairSums
  rw [dif_pos h]
  have e0 : (i 0 : Fin n) = r := Fin.ext hr.symm
  have e1 : (⟨(i 1).val, h⟩ : Fin 128) = l := Fin.ext hl.symm
  rw [e0, e1]

/-- In the last 128 lanes the result is the column sum of the second pair, the lane counted from 128. -/
theorem pairSums_right {n : Nat} (a0 a1 a2 a3 : (⟨3, ![n, 64, 128]⟩ : Shape).Idx → EReal)
    (i : (⟨2, ![n, 256]⟩ : Shape).Idx) (r : Fin n) (l : Fin 128) (hr : r.val = (i 0).val) (hl : l.val + 128 = (i 1).val) :
    pairSums a0 a1 a2 a3 i = colSum a2 a3 r l := by
  have h : ¬ (i 1).val < 128 := by omega
  unfold pairSums
  rw [dif_neg h]
  have e0 : (i 0 : Fin n) = r := Fin.ext hr.symm
  have e1 : (⟨(i 1).val - 128, by have := idx2_lt1 i; omega⟩ : Fin 128) = l := Fin.ext (by show (i 1).val - 128 = l.val; omega)
  rw [e0, e1]

/-- A column sum over a block of rows: if the small arrays are rows `o, o + 1, …` of the large ones, the column sum of
    the small pair at row `p` is that of the large pair at row `o + p`. -/
theorem colSum_rows {n N : Nat} (b b' : (⟨3, ![n, 64, 128]⟩ : Shape).Idx → EReal)
    (A A' : (⟨3, ![N, 64, 128]⟩ : Shape).Idx → EReal) (o : Nat)
    (hb : ∀ (p : Fin n) (k : Fin 64) (l : Fin 128) (r : Fin N), r.val = o + p.val → b (ix3 p k l) = A (ix3 r k l))
    (hb' : ∀ (p : Fin n) (k : Fin 64) (l : Fin 128) (r : Fin N), r.val = o + p.val → b' (ix3 p k l) = A' (ix3 r k l))
    (p : Fin n) (r : Fin N) (hr : r.val = o + p.val) (l : Fin 128) :
    colSum b b' p l = colSum A A' r l := by
  unfold colSum
  refine Finset.sum_congr rfl fun k _ => ?_
  rw [hb p k l r hr, hb' p k l r hr]

/-- A block of rows of the result is the result of that block of rows of the arguments: with the small arrays rows
    `o, o + 1, …` of the large ones, the small result at (p, q) is the large result at (o + p, q). -/
theorem pairSums_rows {n N : Nat} (b0 b1 b2 b3 : (⟨3, ![n, 64, 128]⟩ : Shape).Idx → EReal)
    (A0 A1 A2 A3 : (⟨3, ![N, 64, 128]⟩ : Shape).Idx → EReal) (o : Nat)
    (h0 : ∀ (p : Fin n) (k : Fin 64) (l : Fin 128) (r : Fin N), r.val = o + p.val → b0 (ix3 p k l) = A0 (ix3 r k l))
    (h1 : ∀ (p : Fin n) (k : Fin 64) (l : Fin 128) (r : Fin N), r.val = o + p.val → b1 (ix3 p k l) = A1 (ix3 r k l))
    (h2 : ∀ (p : Fin n) (k : Fin 64) (l : Fin 128) (r : Fin N), r.val = o + p.val → b2 (ix3 p k l) = A2 (ix3 r k l))
    (h3 : ∀ (p : Fin n) (k : Fin 64) (l : Fin 128) (r : Fin N), r.val = o + p.val → b3 (ix3 p k l) = A3 (ix3 r k l))
    (j : (⟨2, ![n, 256]⟩ : Shape).Idx) (i : (⟨2, ![N, 256]⟩ : Shape).Idx)
    (hi0 : (i 0).val = o + (j 0).val) (hi1 : (i 1).val = (j 1).val) :
    pairSums b0 b1 b2 b3 j = pairSums A0 A1 A2 A3 i := by
  by_cases h : (j 1).val < 128
  · rw [pairSums_left b0 b1 b2 b3 j (j 0) ⟨(j 1).val, h⟩ rfl rfl,
      pairSums_left A0 A1 A2 A3 i (i 0) ⟨(j 1).val, h⟩ rfl hi1.symm]
    exact colSum_rows b0 b1 A0 A1 o h0 h1 (j 0) (i 0) hi0 _
  · have h' : (j 1).val - 128 < 128 := by have := idx2_lt1 j; omega
    rw [pairSums_right b0 b1 b2 b3 j (j 0) ⟨(j 1).val - 128, h'⟩ rfl (by show (j 1).val - 128 + 128 = (j 1).val; omega),
      pairSums_right A0 A1 A2 A3 i (i 0) ⟨(j 1).val - 128, h'⟩ rfl (by show (j 1).val - 128 + 128 = (i 1).val; omega)]
    exact colSum_rows b2 b3 A2 A3 o h2 h3 (j 0) (i 0) hi0 _

end Cert.PairSums

end
-- ==== Proof.RefSums.lean ====
/-
  The reference's result is the pair of column sums. Its program multiplies the arrays pointwise, sums each
  product over the middle axis from a zero initial value, and joins the two [4096, 128] sums along the last axis; read
  at an index (r, q) the joined array is the first sum at (r, q) when q < 128 and the second at (r, q - 128) otherwise,
  and each sum from zero is the plain sum over the 64 middle coordinates.
-/
import proofs.«100294_j61933428408454_1_alg».proof.Proof.Gen.ReferenceIdeal.Read
import proofs.«100294_j61933428408454_1_alg».proof.Proof.PairSums
import Idealize.ShloMosaic.Lib.Pipeline.Value
import Idealize.ShloMosaic.PureOps.Ideal.Laws
import Idealize.ShloMosaic.Lib.ValueIdx

noncomputable section

open scoped BigOperators

namespace Cert.ReferenceIdeal.RefSums

open Cert.ReferenceIdeal Cert.ReferenceIdeal.Read Idealize.ShloMosaic Idealize.ShloMosaic.ValueIdx Cert.PairSums

/-- The host's sum of the first product over the middle axis, from zero, at row `r` and lane `l`. -/
theorem sum_first (x0 x1 : (⟨S4096x64x128, .f32⟩ : BufTy).Contents (Elt Ideal)) (r : Fin 4096) (l : Fin 128) :
    val_main_v1 (F := Ideal) x0 x1 (ix2 r l) = colSum x0 x1 r l := by
  rw [val_main_v1_apply, val_main_cst_apply]
  simp only [Ideal.ofBits_def, Ideal.ofBits_zero_f32, zero_add]
  unfold colSum
  refine Finset.sum_congr rfl fun k _ => ?_
  rw [val_main_v0_apply, Ideal.mulf_def]
  have e : idx_main_v1 (ix2 r l) k = ix3 r k l :=
    funext fun a => Fin.ext (by match a with | ⟨0, _⟩ => rfl | ⟨1, _⟩ => rfl | ⟨2, _⟩ => rfl)
  rw [e]

/-- The same for the second product. -/
theorem sum_second (x2 x3 : (⟨S4096x64x128, .f32⟩ : BufTy).Contents (Elt Ideal)) (r : Fin 4096) (l : Fin 128) :
    val_main_v3 (F := Ideal) x2 x3 (ix2 r l) = colSum x2 x3 r l := by
  rw [val_main_v3_apply, val_main_cst_0_apply]
  simp only [Ideal.ofBits_def, Ideal.ofBits_zero_f32, zero_add]
  unfold colSum
  refine Finset.sum_congr rfl fun k _ => ?_
  rw [val_main_v2_apply, Ideal.mulf_def]
  have e : idx_main_v3 (ix2 r l) k = ix3 r k l :=
    funext fun a => Fin.ext (by match a with | ⟨0, _⟩ => rfl | ⟨1, _⟩ => rfl | ⟨2, _⟩ => rfl)
  rw [e]

/-- The reference's last stage, the two sums joined along the lanes, is `pairSums` of the arguments. -/
theorem result_eq (x0 x1 x2 x3 : (⟨S4096x64x128, .f32⟩ : BufTy).Contents (Elt Ideal)) :
    val_main_v4 (F := Ideal) x0 x1 x2 x3 = pairSums x0 x1 x2 x3 := by
  funext i
  obtain ⟨r, q, rfl⟩ : ∃ (r : Fin 4096) (q : Fin 256), i = ix2 r q := ⟨i 0, i 1, eq_ix2 i⟩
  unfold val_main_v4
  by_cases h : q.val < 128
  · rw [concatenate_pair_apply_left (t := S4096x256) (s₁ := S4096x128) (s₂ := S4096x128) 1 _ _ _ (ix2 r q) rfl (ix2 r (⟨q.val, h⟩ : Fin 128))
      (fun b => by match b with | ⟨0, _⟩ => rfl | ⟨1, _⟩ => rfl)]
    rw [sum_first, pairSums_left x0 x1 x2 x3 (ix2 r q) r ⟨q.val, h⟩ rfl rfl]
  · have h2 : q.val - 128 < 128 := by have := q.isLt; omega
    rw [concatenate_pair_apply_right (t := S4096x256) (s₁ := S4096x128) (s₂ := S4096x128) 1 _ _ _ (ix2 r q) rfl rfl (ix2 r (⟨q.val - 128, h2⟩ : Fin 128))
      (fun b hb => by match b with | ⟨0, _⟩ => rfl | ⟨1, _⟩ => exact absurd rfl hb)
      (by show q.val - 128 + 128 = q.val; omega)]
    rw [sum_second, pairSums_right x0 x1 x2 x3 (ix2 r q) r ⟨q.val - 128, h2⟩ rfl (by show q.val - 128 + 128 = q.val; omega)]

end Cert.ReferenceIdeal.RefSums

end
-- ==== Proof.BlockSums.lean ====
/-
  What the kernel body leaves in its output block. The body multiplies its first two input blocks pointwise, sums the
  product over the middle axis and stores the [64, 128] sums in lanes 0 … 127 of the [64, 256] output block; it does the
  same with the other two input blocks into lanes 128 … 255. The two stores tile the block, so whatever the block held
  before, it ends as the pair of column sums of the four input blocks.
-/
import proofs.«100294_j61933428408454_1_alg».proof.Proof.Gen.KernelIdeal.Frame
import proofs.«100294_j61933428408454_1_alg».proof.Proof.PairSums
import Idealize.ShloMosaic.Lib.Pipeline.Value
import Idealize.ShloMosaic.PureOps.Ideal.Laws
import Idealize.ShloMosaic.Lib.ValueIdx

noncomputable section

open scoped BigOperators

namespace Cert.KernelIdeal.BlockSums

open Cert.KernelIdeal Cert.KernelIdeal.Gen Cert.KernelIdeal.Facts₀ Idealize.ShloMosaic Idealize.ShloMosaic.ValueIdx Cert.PairSums

theorem zero3 : (![0, 0, 0] : Fin 3 → Nat) = fun _ => 0 := funext fun a => by fin_cases a <;> rfl

/-- The lane reduction of the first product, from its neutral accumulator, is the plain sum over the middle axis. -/
theorem firstSum_apply (v0 v1 : Vec Ideal S64x64x128 .f32) (p : Fin 64) (l : Fin 128) :
    k0_pay1 (F := Ideal) v0 v1 (ix2 p l) = colSum v0 v1 p l := by
  unfold k0_pay1
  refine (Ideal.multiReduction_add_single (mulf v0 v1) 0x00000000#32 Facts₀.reduces_S64x64x128_S64x128 (.inl rfl) rfl (ix2 p l)).trans ?_
  unfold colSum
  refine Finset.sum_congr rfl fun k _ => ?_
  have e : Facts₀.reduces_S64x64x128_S64x128.lift (ix2 p l) k = ix3 p k l :=
    funext fun a => Fin.ext (by match a with | ⟨0, _⟩ => rfl | ⟨1, _⟩ => rfl | ⟨2, _⟩ => rfl)
  rw [e]
  rfl

/-- The same for the second product. -/
theorem secondSum_apply (v4 v5 : Vec Ideal S64x64x128 .f32) (p : Fin 64) (l : Fin 128) :
    k0_pay2 (F := Ideal) v4 v5 (ix2 p l) = colSum v4 v5 p l := by
  unfold k0_pay2
  refine (Ideal.multiReduction_add_single (mulf v4 v5) 0x00000000#32 Facts₀.reduces_S64x64x128_S64x128 (.inl rfl) rfl (ix2 p l)).trans ?_
  unfold colSum
  refine Finset.sum_congr rfl fun k _ => ?_
  have e : Facts₀.reduces_S64x64x128_S64x128.lift (ix2 p l) k = ix3 p k l :=
    funext fun a => Fin.ext (by match a with | ⟨0, _⟩ => rfl | ⟨1, _⟩ => rfl | ⟨2, _⟩ => rfl)
  rw [e]
  rfl

/-- The store into lanes 0 … 127 writes, at each of its positions, the pair of column sums there. -/
theorem piece_left (x0 x1 x2 x3 : Vec Ideal S64x64x128 .f32) (x : S64x128.Idx) :
    k0_pay1 (F := Ideal) x0 x1 x = pairSums x0 x1 x2 x3 (r0_1.emb x) := by
  obtain ⟨p, l, rfl⟩ : ∃ (p : Fin 64) (l : Fin 128), x = ix2 p l := ⟨x 0, x 1, eq_ix2 x⟩
  rw [firstSum_apply, pairSums_left x0 x1 x2 x3 (r0_1.emb (ix2 p l)) p l
    (by show p.val = 0 + 1 * p.val; omega) (by show l.val = 0 + 1 * l.val; omega)]

/-- The store into lanes 128 … 255 likewise. -/
theorem piece_right (x0 x1 x2 x3 : Vec Ideal S64x64x128 .f32) (x : S64x128.Idx) :
    k0_pay2 (F := Ideal) x2 x3 x = pairSums x0 x1 x2 x3 (r0_2.emb x) := by
  obtain ⟨p, l, rfl⟩ : ∃ (p : Fin 64) (l : Fin 128), x = ix2 p l := ⟨x 0, x 1, eq_ix2 x⟩
  rw [secondSum_apply, pairSums_right x0 x1 x2 x3 (r0_2.emb (ix2 p l)) p l
    (by show p.val = 0 + 1 * p.val; omega) (by show l.val + 128 = 128 + 1 * l.val; omega)]

/-- The output block after the body is the pair of column sums of the four input blocks. -/
theorem out_eq (x0 x1 x2 x3 : Vec Ideal S64x64x128 .f32) :
    out0_4 (F := Ideal) x0 x1 x2 x3 = pairSums x0 x1 x2 x3 := by
  funext y
  unfold out0_4
  simp only [View.ld_unit_zero (S := S64x64x128) zero3]
  refine View.canon_apply_of_pieces (Val := Elt Ideal) (S := S64x256) (e := .f32) (pairSums x0 x1 x2 x3) _ ?_ y (cover0_4 _ _ y)
  intro pc hpc
  simp only [List.mem_cons, List.not_mem_nil, or_false] at hpc
  rcases hpc with rfl | rfl
  · exact fun x => piece_right x0 x1 x2 x3 x
  · exact fun x => piece_left x0 x1 x2 x3 x

end Cert.KernelIdeal.BlockSums

end
-- ==== Proof.ArraySums.lean ====
/-
  From blocks to the array. The grid has 64 points; at point t every input window holds rows 64 t … 64 t + 63 of its
  argument array (all of the other two axes), and the output window's block is rows 64 t … 64 t + 63 of the result
  array (all 256 lanes). The body leaves in the output block the pair of column sums of the four input blocks, and a
  block of rows of the pair of column sums of the whole arrays is the pair of column sums of those rows: so point t
  writes back block t of the pair of column sums of the argument arrays. The 64 blocks tile the 4096 rows, hence after
  the run the result array is the pair of column sums of the arguments.
-/
import proofs.«100294_j61933428408454_1_alg».proof.Proof.Gen.KernelIdeal.Value
import proofs.«100294_j61933428408454_1_alg».proof.Proof.BlockSums
import Idealize.ShloMosaic.Lib.Pipeline.Value
import Idealize.ShloMosaic.Lib.ValueIdx

noncomputable section

open scoped BigOperators

namespace Cert.KernelIdeal.ArraySums

open Cert.KernelIdeal Cert.KernelIdeal.Gen Idealize.ShloMosaic Idealize.ShloMosaic.TcCoe Idealize.SL.Sem
open Idealize.ShloMosaic.ValueIdx Cert.PairSums
open Idealize.ShloMosaic.Pipeline (Dat)

variable (m : (ℓ : Loc nD τ sig) → Buf (Elt Ideal) ℓ) (ρ : Dev nD → PrngReg)

/-- The four argument arrays on core `c`, as launched. -/
abbrev arg0 (c : Dev nD) : S4096x64x128.Idx → EReal := m ((c : Thread nD τ).loc main_arg0)
abbrev arg1 (c : Dev nD) : S4096x64x128.Idx → EReal := m ((c : Thread nD τ).loc main_arg1)
abbrev arg2 (c : Dev nD) : S4096x64x128.Idx → EReal := m ((c : Thread nD τ).loc main_arg2)
abbrev arg3 (c : Dev nD) : S4096x64x128.Idx → EReal := m ((c : Thread nD τ).loc main_arg3)

/-- The pair of column sums of the argument arrays on core `c`. -/
abbrev result (c : Dev nD) : S4096x256.Idx → EReal := pairSums (arg0 m c) (arg1 m c) (arg2 m c) (arg3 m c)

/-- The printed index maps over the grid: at point `t` every window is at block `t` along the rows and at block 0
    along every other axis. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- Input block `t` of the first argument is its rows 64 t … 64 t + 63. -/
theorem block0_apply (c : Dev nD) (t : Fin cfg0.N) (p : Fin 64) (k : Fin 64) (l : Fin 128) (r : Fin 4096)
    (hr : r.val = 64 * t.val + p.val) :
    (iblk m c 0 t : Vec Ideal S64x64x128 .f32) (ix3 p k l) = arg0 m c (ix3 r k l) := by
  obtain ⟨e0, e1, e2, -⟩ := block_index t
  unfold iblk
  rw [View.read_apply]
  show V m c main_arg0 _ = m (c.tc.loc main_arg0) _
  unfold V
  congr 1
  funext a
  apply Fin.ext
  match a with
  | ⟨0, _⟩ => show win0_0.index t 0 * 64 + 1 * p.val = r.val; rw [e0, hr]; omega
  | ⟨1, _⟩ => show win0_0.index t 1 * 64 + 1 * k.val = k.val; rw [e1]; omega
  | ⟨2, _⟩ => show win0_0.index t 2 * 128 + 1 * l.val = l.val; rw [e2]; omega

/-- Input block `t` of the second argument is its rows 64 t … 64 t + 63. -/
theorem block1_apply (c : Dev nD) (t : Fin cfg0.N) (p : Fin 64) (k : Fin 64) (l : Fin 128) (r : Fin 4096)
    (hr : r.val = 64 * t.val + p.val) :
    (iblk m c 1 t : Vec Ideal S64x64x128 .f32) (ix3 p k l) = arg1 m c (ix3 r k l) := by
  obtain ⟨-, -, -, e0, e1, e2, -⟩ := block_index t
  unfold iblk
  rw [View.read_apply]
  show V m c main_arg1 _ = m (c.tc.loc main_arg1) _
  unfold V
  congr 1
  funext a
  apply Fin.ext
  match a with
  | ⟨0, _⟩ => show win0_1.index t 0 * 64 + 1 * p.val = r.val; rw [e0, hr]; omega
  | ⟨1, _⟩ => show win0_1.index t 1 * 64 + 1 * k.val = k.val; rw [e1]; omega
  | ⟨2, _⟩ => show win0_1.index t 2 * 128 + 1 * l.val = l.val; rw [e2]; omega

/-- Input block `t` of the third argument is its rows 64 t … 64 t + 63. -/
theorem block2_apply (c : Dev nD) (t : Fin cfg0.N) (p : Fin 64) (k : Fin 64) (l : Fin 128) (r : Fin 4096)
    (hr : r.val = 64 * t.val + p.val) :
    (iblk m c 2 t : Vec Ideal S64x64x128 .f32) (ix3 p k l) = arg2 m c (ix3 r k l) := by
  obtain ⟨-, -, -, -, -, -, e0, e1, e2, -⟩ := block_index t
  unfold iblk
  rw [View.read_apply]
  show V m c main_arg2 _ = m (c.tc.loc main_arg2) _
  unfold V
  congr 1
  funext a
  apply Fin.ext
  match a with
  | ⟨0, _⟩ => show win0_2.index t 0 * 64 + 1 * p.val = r.val; rw [e0, hr]; omega
  | ⟨1, _⟩ => show win0_2.index t 1 * 64 + 1 * k.val = k.val; rw [e1]; omega
  | ⟨2, _⟩ => show win0_2.index t 2 * 128 + 1 * l.val = l.val; rw [e2]; omega

/-- Input block `t` of the fourth argument is its rows 64 t … 64 t + 63. -/
theorem block3_apply (c : Dev nD) (t : Fin cfg0.N) (p : Fin 64) (k : Fin 64) (l : Fin 128) (r : Fin 4096)
    (hr : r.val = 64 * t.val + p.val) :
    (iblk m c 3 t : Vec Ideal S64x64x128 .f32) (ix3 p k l) = arg3 m c (ix3 r k l) := by
  obtain ⟨-, -, -, -, -, -, -, -, -, e0, e1, e2, -⟩ := block_index t
  unfold iblk
  rw [View.read_apply]
  show V m c main_arg3 _ = m (c.tc.loc main_arg3) _
  unfold V
  congr 1
  funext a
  apply Fin.ext
  match a with
  | ⟨0, _⟩ => show win0_3.index t 0 * 64 + 1 * p.val = r.val; rw [e0, hr]; omega
  | ⟨1, _⟩ => show win0_3.index t 1 * 64 + 1 * k.val = k.val; rw [e1]; omega
  | ⟨2, _⟩ => show win0_3.index t 2 * 128 + 1 * l.val = l.val; rw [e2]; omega

/-- What point `t` writes back is block `t` of the pair of column sums of the argument arrays. -/
theorem flushed_eq (c : Dev nD) (t : Fin cfg0.N) :
    (dats m 0 c).flushed 4 t = ((cfg0.win 4).blk t).view.read (Elt Ideal) (result m c) := by
  rw [Cert.KernelIdeal.Value.flushed4, Cert.KernelIdeal.BlockSums.out_eq]
  obtain ⟨-, -, -, -, -, -, -, -, -, -, -, -, e0, e1⟩ := block_index t
  funext j
  show pairSums (iblk m c 0 t : Vec Ideal S64x64x128 .f32) (iblk m c 1 t : Vec Ideal S64x64x128 .f32)
      (iblk m c 2 t : Vec Ideal S64x64x128 .f32) (iblk m c 3 t : Vec Ideal S64x64x128 .f32) j
    = result m c (((cfg0.win 4).blk t).view.emb j)
  refine pairSums_rows _ _ _ _ (arg0 m c) (arg1 m c) (arg2 m c) (arg3 m c) (64 * t.val)
    (fun p k l r hr => block0_apply m c t p k l r hr) (fun p k l r hr => block1_apply m c t p k l r hr)
    (fun p k l r hr => block2_apply m c t p k l r hr) (fun p k l r hr => block3_apply m c t p k l r hr) j _ ?_ ?_
  · show win0_4.index t 0 * 64 + 1 * (j 0).val = 64 * t.val + (j 0).val
    rw [e0]; omega
  · show win0_4.index t 1 * 256 + 1 * (j 1).val = (j 1).val
    rw [e1]; omega

/-- An index of the result array is in point `t`'s block iff each coordinate is in the block's range on its axis. -/
theorem mem_block (t : Fin cfg0.N) (i : S4096x256.Idx) :
    i ∈ ((cfg0.win 4).blk t).view.set ↔ ∀ a : Fin 2, win0_4.index t a * S64x256.size a ≤ (i a).val ∧ (i a).val < win0_4.index t a * S64x256.size a + S64x256.size a := by
  show i ∈ ((View.whole main_v0).slice (win0_4.rect t)).set ↔ _
  rw [View.set_slice_whole, Rect.mem_set_unit]
  exact Iff.rfl

/-- Every block of 64 rows is some point's. -/
theorem block_onto : ∀ q : Fin 64, ∃ t : Fin cfg0.N, win0_4.index t = ![q.val, 0] :=
  (by decide +kernel : ∀ q : Fin 64, ∃ t : Fin grid0.N, win0_4.index t = ![q.val, 0])

/-- The blocks tile the result array: row `r` is in the block of point `r / 64`. -/
theorem covered (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ := block_onto ⟨(i 0).val / 64, by omega⟩
  have q0 : win0_4.index t (0 : Fin 2) = (i 0).val / 64 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-- The result array after the run. -/
theorem final (c : Dev nD) : (dats m 0 c).arrAt 4 cfg0.N = result m c :=
  (dats m 0 c).arrAt_eq_of_cover 4 (result m c) (fun t _ => flushed_eq m c t) covered

/-- The kernel's run, read: the result array ends at the pair of column sums of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.KernelIdeal.ArraySums

end
-- ==== Proof.lean ====
/-
  The kernel computes, on blocks of 64 rows, the sum over the middle axis of m0 · m1 into lanes 0 … 127 and of m2 · m3
  into lanes 128 … 255 of a [4096, 256] result; the reference computes the two sums on whole arrays and joins them along
  the last axis. Over the extended reals both are the same function of the arguments (`Cert.PairSums.pairSums`): the
  sums are finite sums of products, equal term by term, so no property of the entries is used.
  The three frames are the generated frame runs (the reference's its generated run with the result dropped); nothing
  was rewritten by the idealization, so that conjunct is trivial; the value conjunct sets the kernel's run, read block
  by block, beside the reference's run, read operation by operation.
-/
import proofs.«100294_j61933428408454_1_alg».proof.Defs
import proofs.«100294_j61933428408454_1_alg».proof.Proof.Gen.Kernel
import proofs.«100294_j61933428408454_1_alg».proof.Proof.Gen.Kernel.Skeleton
import proofs.«100294_j61933428408454_1_alg».proof.Proof.Gen.Kernel.Launch
import proofs.«100294_j61933428408454_1_alg».proof.Proof.Gen.Kernel.Points
import proofs.«100294_j61933428408454_1_alg».proof.Proof.Gen.Kernel.Frame
import proofs.«100294_j61933428408454_1_alg».proof.Proof.Gen.KernelIdeal
import proofs.«100294_j61933428408454_1_alg».proof.Proof.Gen.KernelIdeal.Skeleton
import proofs.«100294_j61933428408454_1_alg».proof.Proof.Gen.KernelIdeal.Launch
import proofs.«100294_j61933428408454_1_alg».proof.Proof.Gen.KernelIdeal.Points
import proofs.«100294_j61933428408454_1_alg».proof.Proof.Gen.KernelIdeal.Frame
import proofs.«100294_j61933428408454_1_alg».proof.Proof.Gen.ReferenceIdeal
import proofs.«100294_j61933428408454_1_alg».proof.Proof.Gen.Pre_finite_inputs
import proofs.«100294_j61933428408454_1_alg».proof.Proof.Gen.KernelIdeal.Value
import proofs.«100294_j61933428408454_1_alg».proof.Proof.Gen.ReferenceIdeal.Run
import proofs.«100294_j61933428408454_1_alg».proof.Proof.Gen.ReferenceIdeal.Read
import proofs.«100294_j61933428408454_1_alg».proof.Proof.PairSums
import proofs.«100294_j61933428408454_1_alg».proof.Proof.RefSums
import proofs.«100294_j61933428408454_1_alg».proof.Proof.BlockSums
import proofs.«100294_j61933428408454_1_alg».proof.Proof.ArraySums
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pair of column sums of the arguments, from memories that agree on the arguments. -/
theorem algebraic : Cert.algebraic_KernelIdeal_ReferenceIdeal := by
  intro m ρ m' ρ' _ hagree
  refine ⟨fun c => Cert.KernelIdeal.ArraySums.result m c, Cert.KernelIdeal.ArraySums.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefSums.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
